-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S16x1x512x512 : Shape := ⟨4, ![16, 1, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn {F : FTy → Type} [FloatOps F] (main_arg0 : FVec F S16x3x512x512 .f32) (main_arg1 : FVec F S16x3x512x512 .f32) (main_arg2 : FVec F S16x1x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_v9 : FVec F S16x1x512x512 .f32 := Host.absf main_arg2
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_c_3 : IVec S_ 1 := constantI S_ 1 1#1
  let main_v12 : IVec S_ 1 := (fun x v => Host.reduce IntOp.andi x v reducesTo_S16x1x512x512_S_d0_1_2_3 h_S_) main_v11 main_c_3
  let main_v13 : IVec S_ 1 := andi main_v8 main_v12
  main_v13
-- ==== Kernel.lean ====
abbrev S16x3x512x512 : Shape := ⟨4, ![16, 3, 512, 512]⟩
abbrev S16x1x512x512 : Shape := ⟨4, ![16, 1, 512, 512]⟩
abbrev S2x1x1 : Shape := ⟨3, ![2, 1, 1]⟩
abbrev S1x3x512x512 : Shape := ⟨4, ![1, 3, 512, 512]⟩
abbrev S1x1x512x512 : Shape := ⟨4, ![1, 1, 512, 512]⟩
abbrev S1x1x1 : Shape := ⟨3, ![1, 1, 1]⟩
abbrev S1x1x3x512x512 : Shape := ⟨5, ![1, 1, 3, 512, 512]⟩
abbrev S1 : Shape := ⟨1, ![1]⟩
abbrev S1x1x1x1x1 : Shape := ⟨5, ![1, 1, 1, 1, 1]⟩
abbrev S1x1x1x512x512 : Shape := ⟨5, ![1, 1, 1, 512, 512]⟩
abbrev S_ : Shape := ⟨0, ![]⟩

abbrev nBuf : Space → Nat
  | .hbm => 27
  | .vmem => 12
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x1x512x512, .f32⟩
  | .hbm, ⟨3, _⟩ => ⟨S2x1x1, .f32⟩
  | .hbm, ⟨4, _⟩ => ⟨S2x1x1, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_cst_5 : Ref sig .tc := ⟨.hbm, 18, rfl⟩
abbrev main_v7 : Ref sig .tc := ⟨.hbm, 19, rfl⟩
abbrev main_v8 : Ref sig .tc := ⟨.hbm, 20, rfl⟩
abbrev main_cst_6 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x1x512x512_S1x1x512x512_0_0_0_0 : ∀ a, (![0, 0, 0, 0] : Fin 4 → Nat) a + S1x1x512x512.size a ≤ S1x1x512x512.size a
  h_S1x1x512x512 : 0 < S1x1x512x512.numel
  natLt_1_32 : 1 < 32
  inb_S1x3x512x512_S1x3x512x512_0_0_0_0 : ∀ a, (![0, 0, 0, 0] : Fin 4 → Nat) a + S1x3x512x512.size a ≤ S1x3x512x512.size a
  h_S1x3x512x512 : 0 < S1x3x512x512.numel
  broadcasts_S1x1x512x512_S1x3x512x512 : S1x1x512x512.Broadcasts S1x3x512x512
  shapeCasts_S1x3x512x512_S1x1x3x512x512 : S1x3x512x512.ShapeCasts S1x1x3x512x512
  reduces_S1x1x3x512x512_S1 : S1x1x3x512x512.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  shapeCasts_S1x1x512x512_S1x1x1x512x512 : S1x1x512x512.ShapeCasts S1x1x1x512x512
  reduces_S1x1x1x512x512_S1 : S1x1x1x512x512.Reduces [1, 2, 3, 4] S1
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x1x512x512.size a
  hwx0_2 : ∀ i : grid0.Coords, EltTy.bits .f32 = 32 ∨ (Rect.block (s := S16x1x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x1x512x512 : Shape := ⟨4, ![16, 1, 512, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x1x512x512, .f32⟩
  | .hbm, ⟨3, _⟩ => ⟨S_, .f32⟩
  | .hbm, ⟨4, _⟩ => ⟨S16x1x512x512, .f32⟩
  | .hbm, ⟨5, _⟩ => ⟨S16x1x512x512, .i1⟩
  | .hbm, ⟨6, _⟩ => ⟨S16x1x512x512, .i32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x3x512x512, .f32⟩
  | .hbm, ⟨17, _⟩ => ⟨S16x3x512x512, .f32⟩
  | .hbm, ⟨18, _⟩ => ⟨S16x1x512x512, .f32⟩
  | .hbm, ⟨19, _⟩ => ⟨S16x3x512x512, .f32⟩
  | .hbm, ⟨20, _⟩ => ⟨S16x3x512x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16x1x512x512, .f32⟩
  | .hbm, ⟨25, _⟩ => ⟨S16x1x512x512, .f32⟩
  | .hbm, ⟨26, _⟩ => ⟨S16x3x512x512, .f32⟩
  | .hbm, ⟨27, _⟩ => ⟨S16x3x512x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  natLt_1_32 : 1 < 32
  reducesTo_S16x1x512x512_S_d0_1_2_3 : S16x1x512x512.ReducesTo [0, 1, 2, 3] S_
  h_S_ : 0 < S_.numel
  bcast_S16x1x512x512_S16x3x512x512_0_1_2_3 : S16x1x512x512.BroadcastsInDim S16x3x512x512 (![0, 1, 2, 3] : Fin 4 → Fin S16x3x512x512.rank)
  reducesTo_S16x3x512x512_S_d0_1_2_3 : S16x3x512x512.ReducesTo [0, 1, 2, 3] S_

variable [Facts₀]

class Facts : Prop extends Facts₀ where

variable [Facts]
-- ==== Proof.Spec.lean ====
/-
  The mathematics both programs compute, stated once over the extended reals.

  From a segmentation map `seg` of shape [16,1,512,512] and two images `x`, `ae` of shape [16,3,512,512]:
  the mask is 1 where `seg > 1/2` and 0 elsewhere, shared by the three channels of a pixel;
    count  = the number of masked pixels,
    posSum = the sum over all image entries of (ae - x)² · mask,
    negSum = the sum over all image entries of (ae - x)² · (1 - mask),
  and the loss is  (count / T) · (negSum / ((T - count) · 3)) + (1 - count / T) · (posSum / (count · 3))
  with T = 16·512·512 the number of pixels. Both programs end with the same scalar operations on
  (count, posSum, negSum); they differ only in how the three sums are grouped.
-/
import Idealize.ShloMosaic.PureOps.Ideal.Laws
import Idealize.ShloMosaic.Lib.ValueIdx

noncomputable section

open Idealize.ShloMosaic Idealize.ShloMosaic.ValueIdx

namespace Cert.MaskedMse

/-- The images' shape, the segmentation map's, and the scalar's. -/
abbrev Img : Shape := ⟨4, ![16, 3, 512, 512]⟩
abbrev Seg : Shape := ⟨4, ![16, 1, 512, 512]⟩
abbrev Sc : Shape := ⟨0, ![]⟩

/-- The mask of one segmentation value: 1 above one half, 0 otherwise (the comparison's bit read as a number). -/
def ind (s : EReal) : EReal :=
  FloatOps.uitofp (F := Ideal) .f32 (FloatOps.cmpf (F := Ideal) (φ := .f32) .ogt s (Ideal.ofBits .f32 0x3F000000#32))

/-- The pixel of the segmentation map under an image entry: its channel coordinate dropped. -/
abbrev pix (i : Img.Idx) : Seg.Idx := ix4 (i 0) (0 : Fin 1) (i 2) (i 3)

/-- The squared difference of the two images at an entry. -/
def sqd (x ae : Img.Idx → EReal) (i : Img.Idx) : EReal := (ae i - x i) * (ae i - x i)

/-- The number of masked pixels. -/
def count (seg : Seg.Idx → EReal) : EReal := ∑ i : Seg.Idx, ind (seg i)

/-- The squared differences summed over the masked pixels' entries. -/
def posSum (x ae : Img.Idx → EReal) (seg : Seg.Idx → EReal) : EReal :=
  ∑ i : Img.Idx, sqd x ae i * ind (seg (pix i))

/-- The squared differences summed over the other pixels' entries. -/
def negSum (x ae : Img.Idx → EReal) (seg : Seg.Idx → EReal) : EReal :=
  ∑ i : Img.Idx, sqd x ae i * (Ideal.ofBits .f32 0x3F800000#32 - ind (seg (pix i)))

/-- The scalar operations both programs end with, on (count, posSum, negSum) held as rank-0 arrays. -/
def loss (P A B : FVec Ideal Sc .f32) : FVec Ideal Sc .f32 :=
  addf
    (mulf (Host.divf P (constant (F := Ideal) Sc .f32 0x4A800000#32))
      (Host.divf B (mulf (subf (constant (F := Ideal) Sc .f32 0x4A800000#32) P) (constant (F := Ideal) Sc .f32 0x40400000#32))))
    (mulf (subf (constant (F := Ideal) Sc .f32 0x3F800000#32) (Host.divf P (constant (F := Ideal) Sc .f32 0x4A800000#32)))
      (Host.divf A (mulf P (constant (F := Ideal) Sc .f32 0x40400000#32))))

/-- The loss of the three arrays. -/
def lossOf (x ae : Img.Idx → EReal) (seg : Seg.Idx → EReal) : FVec Ideal Sc .f32 :=
  loss (fun _ => count seg) (fun _ => posSum x ae seg) (fun _ => negSum x ae seg)

end Cert.MaskedMse

end
-- ==== Proof.Algebra.lean ====
/-
  Re-groupings of the sums: a sum over all entries of a [16,c,512,512] array taken image by image; sixteen
  per-image terms taken as two chains of eight; and the count of set bits, added as 32-bit words, read as a number.
-/
import proofs.«125737_j8770323218587_1_alg».proof.Proof.Spec
import Idealize.ShloMosaic.Lib.WordSum

noncomputable section

open Idealize.ShloMosaic Idealize.ShloMosaic.ValueIdx

namespace Cert.MaskedMse

/-- An index of the [16,c,512,512] array is an image number together with an index into one image. -/
private def imgEquiv (c : Nat) :
    (⟨4, ![16, c, 512, 512]⟩ : Shape).Idx ≃ Fin 16 × (⟨4, ![1, c, 512, 512]⟩ : Shape).Idx where
  toFun i := (i 0, ix4 (0 : Fin 1) (i 1) (i 2) (i 3))
  invFun p := ix4 p.1 (p.2 1) (p.2 2) (p.2 3)
  left_inv i := (eq_ix4 i).symm
  right_inv p := by
    refine Prod.ext rfl ?_
    funext a
    match a with
    | ⟨0, h⟩ =>
      have h1 : (p.2 ⟨0, h⟩).val < 1 := (p.2 ⟨0, h⟩).isLt
      exact Fin.ext (show (0 : ℕ) = (p.2 ⟨0, h⟩).val by omega)
    | ⟨1, _⟩ => rfl
    | ⟨2, _⟩ => rfl
    | ⟨3, _⟩ => rfl

/-- A sum over every entry of a [16,c,512,512] array is the sum, over the sixteen images, of the sums over one image's entries. -/
theorem sum_by_image {c : Nat} (f : (⟨4, ![16, c, 512, 512]⟩ : Shape).Idx → EReal) :
    ∑ i, f i = ∑ n : Fin 16, ∑ y : (⟨4, ![1, c, 512, 512]⟩ : Shape).Idx, f (ix4 n (y 1) (y 2) (y 3)) := by
  rw [← Equiv.sum_comp (imgEquiv c).symm f, Fintype.sum_prod_type]
  exact Finset.sum_congr rfl fun n _ => Finset.sum_congr rfl fun y _ => rfl

/-- An index of a [2,1,1] array is its first coordinate. -/
private def runEquiv : (⟨3, ![2, 1, 1]⟩ : Shape).Idx ≃ Fin 2 where
  toFun p := p 0
  invFun a := ix3 a (0 : Fin 1) (0 : Fin 1)
  left_inv p := by
    funext a
    match a with
    | ⟨0, _⟩ => rfl
    | ⟨1, h⟩ =>
      have h1 : (p ⟨1, h⟩).val < 1 := (p ⟨1, h⟩).isLt
      exact Fin.ext (show (0 : ℕ) = (p ⟨1, h⟩).val by omega)
    | ⟨2, h⟩ =>
      have h1 : (p ⟨2, h⟩).val < 1 := (p ⟨2, h⟩).isLt
      exact Fin.ext (show (0 : ℕ) = (p ⟨2, h⟩).val by omega)
  right_inv _ := rfl

/-- Sixteen terms taken as two runs of eight (one run per entry of a [2,1,1] array) are the sixteen terms. -/
theorem sum_two_runs (s : ℕ → EReal) :
    ∑ p : (⟨3, ![2, 1, 1]⟩ : Shape).Idx, ∑ k ∈ Finset.range 8, s (8 * (p 0).val + k) = ∑ n : Fin 16, s n.val := by
  have hL : ∑ p : (⟨3, ![2, 1, 1]⟩ : Shape).Idx, ∑ k ∈ Finset.range 8, s (8 * (p 0).val + k)
      = ∑ a : Fin 2, ∑ k ∈ Finset.range 8, s (8 * a.val + k) :=
    (Equiv.sum_comp runEquiv.symm (fun p => ∑ k ∈ Finset.range 8, s (8 * (p 0).val + k))).symm
  have hR : ∑ n : Fin 16, s n.val = ∑ n ∈ Finset.range (8 + 8), s n := Fin.sum_univ_eq_sum_range (fun n => s n) 16
  rw [hL, hR, Fin.sum_univ_two, Finset.sum_range_add]
  refine congrArg₂ (· + ·) (Finset.sum_congr rfl fun k _ => ?_) (Finset.sum_congr rfl fun k _ => ?_)
  · show s (8 * 0 + k) = s k
    rw [Nat.mul_zero, Nat.zero_add]
  · show s (8 * 1 + k) = s (8 + k)
    rw [Nat.mul_one]

/-- The segmentation map has 2²² entries. -/
private theorem card_seg : Fintype.card Seg.Idx = 2 ^ 22 := by
  rw [Shape.card_idx]
  show ∏ a : Fin 4, (![16, 1, 512, 512] : Fin 4 → ℕ) a = 2 ^ 22
  rw [Fin.prod_univ_four]
  show (16 * 1 * 512 * 512 : ℕ) = 2 ^ 22
  norm_num

/-- The cast of a finite sum of reals is the sum of the casts. -/
private theorem coe_sum {ι : Type*} (S : Finset ι) (g : ι → ℝ) :
    ((∑ i ∈ S, g i : ℝ) : EReal) = ∑ i ∈ S, (g i : EReal) := by
  induction S using Finset.cons_induction with
  | empty => rw [Finset.sum_empty, Finset.sum_empty]; rfl
  | cons a S ha ih => rw [Finset.sum_cons, Finset.sum_cons, EReal.coe_add, ih]

/-- A one-bit word widened to 32 bits keeps its value. -/
private theorem toNat_widen (x : BitVec 1) : (x.setWidth 32).toNat = x.toNat := by
  rw [BitVec.toNat_setWidth]
  exact Nat.mod_eq_of_lt (lt_of_lt_of_le x.isLt (by norm_num))

/-- Finitely many naturals, each at most one, add up to at most their number. -/
private theorem sum_le_card {ι : Type*} [Fintype ι] (g : ι → ℕ) (h : ∀ i, g i ≤ 1) : ∑ i, g i ≤ Fintype.card ι := by
  have h1 : ∑ i, g i ≤ ∑ _i : ι, 1 := Finset.sum_le_sum fun i _ => h i
  have h2 : ∑ _i : ι, 1 = Fintype.card ι := by
    rw [Finset.sum_const, Finset.card_univ, smul_eq_mul, Nat.mul_one]
  rw [h2] at h1
  exact h1

/-- The values of the widened bits add up to at most the number of entries. -/
private theorem sum_bits_le (b : Seg.Idx → BitVec 1) : ∑ i : Seg.Idx, ((b i).setWidth 32).toNat ≤ 2 ^ 22 := by
  have h := sum_le_card (fun i : Seg.Idx => ((b i).setWidth 32).toNat) fun i => by
    show ((b i).setWidth 32).toNat ≤ 1
    rw [toNat_widen]
    have := (b i).isLt
    omega
  rw [card_seg] at h
  exact h

/-- One-bit words widened to 32 bits and added as words: the sum read as a signed number is the number of set bits
    (there are 2²² of them at most, far inside the word). -/
theorem count_words (b : Seg.Idx → BitVec 1) :
    ((((∑ i : Seg.Idx, (b i).setWidth 32 : BitVec 32).toInt : ℤ) : ℝ) : EReal) = ∑ i : Seg.Idx, ((((b i).toNat : ℕ) : ℝ) : EReal) := by
  have hle := sum_bits_le b
  have hnat : (∑ i : Seg.Idx, (b i).setWidth 32 : BitVec 32).toNat = ∑ i : Seg.Idx, (b i).toNat := by
    rw [WordSum.toNat_sum _ _ (lt_of_le_of_lt hle (by norm_num))]
    exact Finset.sum_congr rfl fun i _ => toNat_widen (b i)
  have hle' : ∑ i : Seg.Idx, (b i).toNat ≤ 2 ^ 22 := by
    rw [← hnat, WordSum.toNat_sum _ _ (lt_of_le_of_lt hle (by norm_num))]
    exact hle
  have hint : (∑ i : Seg.Idx, (b i).setWidth 32 : BitVec 32).toInt = ((∑ i : Seg.Idx, (b i).toNat : ℕ) : ℤ) := by
    rw [BitVec.toInt_eq_toNat_of_lt (by rw [hnat]; omega), hnat]
  rw [hint, Int.cast_natCast, Nat.cast_sum, coe_sum]

end Cert.MaskedMse

end
-- ==== Proof.RefValue.lean ====
/-
  The reference, read at the extended reals: its result is the loss of the three sums. The two float sums
  are total sums from a zero initial value; the count is a sum of 32-bit words converted to a float, which is
  the number of masked pixels because that number fits the word.
-/
import proofs.«125737_j8770323218587_1_alg».proof.Proof.Spec
import proofs.«125737_j8770323218587_1_alg».proof.Proof.Algebra
import proofs.«125737_j8770323218587_1_alg».proof.Proof.Gen.ReferenceIdeal.Run
import Idealize.ShloMosaic.Lib.Pipeline.Value

noncomputable section

open Idealize.ShloMosaic Idealize.ShloMosaic.ValueIdx

namespace Cert.MaskedMse.Ref

open Cert.ReferenceIdeal Cert.ReferenceIdeal.Gen Cert.MaskedMse

/-- A fold of word addition from the zero word is the sum of the words. -/
theorem fold_addi_eq_sum {ι : Type} (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

/-- A segmentation-shaped array broadcast along the channel axis reads, at an image entry, its value at the entry's pixel. -/
theorem bcast_pix (m : FVec Ideal S16x1x512x512 .f32) (i : Img.Idx) :
    broadcastInDim S16x3x512x512 ![0, 1, 2, 3] bcast_S16x1x512x512_S16x3x512x512_0_1_2_3 m i = m (pix i) :=
  broadcastInDim_apply _ _ m i (pix i) fun a =>
    match a with
    | ⟨0, _⟩ => rfl
    | ⟨1, _⟩ => rfl
    | ⟨2, _⟩ => rfl
    | ⟨3, _⟩ => rfl

/-- The total float sum, from a zero initial value, of the squared differences weighted by a pixel array:
    the sum over all image entries of the squared difference times the weight at the entry's pixel. -/
theorem weighted_sum_eq (x ae : FVec Ideal S16x3x512x512 .f32) (m : FVec Ideal S16x1x512x512 .f32) :
    (Host.reduceAdd (mulf (mulf (subf (ae) (x)) (subf (ae) (x))) (broadcastInDim S16x3x512x512 ![0, 1, 2, 3] bcast_S16x1x512x512_S16x3x512x512_0_1_2_3 m)) (constant S_ .f32 0x00000000#32) reducesTo_S16x3x512x512_S_d0_1_2_3 h_S_ : FVec Ideal S_ .f32)
      = fun _ => ∑ i : Img.Idx, sqd x ae i * m (pix i) := by
  funext j
  show Ideal.hostReduceAdd _ _ _ j = _
  rw [Ideal.hostReduceAdd_total _ (fun b => b.elim0)]
  show Ideal.ofBits .f32 0x00000000#32 + _ = _
  rw [Ideal.ofBits_zero_f32, zero_add]
  refine Finset.sum_congr rfl fun i _ => ?_
  show (ae i - x i) * (ae i - x i) * _ = _
  rw [bcast_pix]
  rfl

/-- The comparison bits of the segmentation map, widened to 32-bit words, added as words from the zero word and
    converted to a float: the number of masked pixels. -/
theorem count_eq (seg : FVec Ideal S16x1x512x512 .f32) :
    (sitofp .f32 (Host.reduce IntOp.addi (extui 32 (cmpf .ogt (seg) (broadcastInDim S16x1x512x512 ![] bcast_S_S16x1x512x512 (constant S_ .f32 0x3F000000#32))) natLt_1_32) (constantI S_ 32 0#32) reducesTo_S16x1x512x512_S_d0_1_2_3 h_S_) : FVec Ideal S_ .f32)
      = fun _ => count seg := by
  funext j
  show (((Host.reduce IntOp.addi _ _ _ _ j).toInt : ℝ) : EReal) = _
  rw [Host.reduce_eq_fold, Finset.filter_true_of_mem (fun i _ => funext fun b => b.elim0)]
  show (((Finset.univ.fold IntOp.addi 0#32 _).toInt : ℝ) : EReal) = _
  rw [fold_addi_eq_sum]
  exact count_words fun i => FloatOps.cmpf (F := Ideal) (φ := .f32) .ogt (seg i) (Ideal.ofBits .f32 0x3F000000#32)

/-- The reference run's result term, at the extended reals, is the loss of the three arrays. -/
theorem result_eq (x ae : FVec Ideal S16x3x512x512 .f32) (seg : FVec Ideal S16x1x512x512 .f32) :
    (addf (mulf (Host.divf (sitofp .f32 (Host.reduce IntOp.addi (extui 32 (cmpf .ogt (seg) (broadcastInDim S16x1x512x512 ![] bcast_S_S16x1x512x512 (constant S_ .f32 0x3F000000#32))) natLt_1_32) (constantI S_ 32 0#32) reducesTo_S16x1x512x512_S_d0_1_2_3 h_S_)) (constant S_ .f32 0x4A800000#32)) (Host.divf (Host.reduceAdd (mulf (mulf (subf (ae) (x)) (subf (ae) (x))) (broadcastInDim S16x3x512x512 ![0, 1, 2, 3] bcast_S16x1x512x512_S16x3x512x512_0_1_2_3 (subf (broadcastInDim S16x1x512x512 ![] bcast_S_S16x1x512x512 (constant S_ .f32 0x3F800000#32)) (uitofp .f32 (cmpf .ogt (seg) (broadcastInDim S16x1x512x512 ![] bcast_S_S16x1x512x512 (constant S_ .f32 0x3F000000#32))))))) (constant S_ .f32 0x00000000#32) reducesTo_S16x3x512x512_S_d0_1_2_3 h_S_) (mulf (subf (constant S_ .f32 0x4A800000#32) (sitofp .f32 (Host.reduce IntOp.addi (extui 32 (cmpf .ogt (seg) (broadcastInDim S16x1x512x512 ![] bcast_S_S16x1x512x512 (constant S_ .f32 0x3F000000#32))) natLt_1_32) (constantI S_ 32 0#32) reducesTo_S16x1x512x512_S_d0_1_2_3 h_S_))) (constant S_ .f32 0x40400000#32)))) (mulf (subf (constant S_ .f32 0x3F800000#32) (Host.divf (sitofp .f32 (Host.reduce IntOp.addi (extui 32 (cmpf .ogt (seg) (broadcastInDim S16x1x512x512 ![] bcast_S_S16x1x512x512 (constant S_ .f32 0x3F000000#32))) natLt_1_32) (constantI S_ 32 0#32) reducesTo_S16x1x512x512_S_d0_1_2_3 h_S_)) (constant S_ .f32 0x4A800000#32))) (Host.divf (Host.reduceAdd (mulf (mulf (subf (ae) (x)) (subf (ae) (x))) (broadcastInDim S16x3x512x512 ![0, 1, 2, 3] bcast_S16x1x512x512_S16x3x512x512_0_1_2_3 (uitofp .f32 (cmpf .ogt (seg) (broadcastInDim S16x1x512x512 ![] bcast_S_S16x1x512x512 (constant S_ .f32 0x3F000000#32)))))) (constant S_ .f32 0x00000000#32) reducesTo_S16x3x512x512_S_d0_1_2_3 h_S_) (mulf (sitofp .f32 (Host.reduce IntOp.addi (extui 32 (cmpf .ogt (seg) (broadcastInDim S16x1x512x512 ![] bcast_S_S16x1x512x512 (constant S_ .f32 0x3F000000#32))) natLt_1_32) (constantI S_ 32 0#32) reducesTo_S16x1x512x512_S_d0_1_2_3 h_S_)) (constant S_ .f32 0x40400000#32)))) : FVec Ideal S_ .f32)
      = lossOf x ae seg := by
  rw [weighted_sum_eq, weighted_sum_eq, count_eq]
  rfl

end Cert.MaskedMse.Ref

end
-- ==== Proof.KernelPieces.lean ====
/-
  What one run of the body leaves in the three accumulator blocks, in each of its two control cases.
  At the first point of a core's run (the second grid coordinate is 0) the body first stores zeros, so each
  accumulator ends at the body's update applied to the zero block; at every other point it ends at the update
  applied to what the point before left. The update of the count adds the block's number of masked pixels,
  the other two add the block's masked and unmasked sums of squared differences.
-/
import proofs.«125737_j8770323218587_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0, 0] : Fin 3 → Nat) = fun _ => 0 := funext fun a => by fin_cases a <;> rfl

theorem hz4 : (![0, 0, 0, 0] : Fin 4 → Nat) = fun _ => 0 := funext fun a => by fin_cases a <;> rfl

/-! Every other point: each accumulator is its update over the value carried in. -/

theorem out_B_3 (c : Dev nD) (i : grid0.Coords) (a2 : Memref sig .tc .vmem S1x3x512x512 .f32) (h2 : a2.IsWhole) (a3 : Memref sig .tc .vmem S1x3x512x512 .f32) (h3 : a3.IsWhole) (a4 : Memref sig .tc .vmem S1x1x512x512 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : ¬cond0_0 i) (x0 x1 : Vec F S1x3x512x512 .f32) (x2 : Vec F S1x1x512x512 .f32) (xo3 xo4 xo5 : Vec F S1x1x1 .f32) :
    out0_B_3 c i a2 h2 a3 h3 a4 h4 a5 h5 a6 h6 a7 h7 hc x0 x1 x2 xo3 xo4 xo5 = k0_pay10 x2 xo3 := by
  unfold out0_B_3
  rw [View.read_writes_eq_canon _ _ _ (cover0_B_3 c i a2 h2 a3 h3 a4 h4 a5 h5 a6 h6 a7 h7 hc x0 x1 x2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1x1x1) hz, View.ld_unit_zero (S := S1x1x512x512) hz4, View.ld_unit_zero (S := S1x3x512x512) hz4]

theorem out_B_4 (c : Dev nD) (i : grid0.Coords) (a2 : Memref sig .tc .vmem S1x3x512x512 .f32) (h2 : a2.IsWhole) (a3 : Memref sig .tc .vmem S1x3x512x512 .f32) (h3 : a3.IsWhole) (a4 : Memref sig .tc .vmem S1x1x512x512 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : ¬cond0_0 i) (x0 x1 : Vec F S1x3x512x512 .f32) (x2 : Vec F S1x1x512x512 .f32) (xo3 xo4 xo5 : Vec F S1x1x1 .f32) :
    out0_B_4 c i a2 h2 a3 h3 a4 h4 a5 h5 a6 h6 a7 h7 hc x0 x1 x2 xo3 xo4 xo5 = k0_pay1 (k0_pay8 x2 x1 x0) xo4 := by
  unfold out0_B_4
  rw [View.read_writes_eq_canon _ _ _ (cover0_B_4 c i a2 h2 a3 h3 a4 h4 a5 h5 a6 h6 a7 h7 hc x0 x1 x2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1x1x1) hz, View.ld_unit_zero (S := S1x1x512x512) hz4, View.ld_unit_zero (S := S1x3x512x512) hz4]

theorem out_B_5 (c : Dev nD) (i : grid0.Coords) (a2 : Memref sig .tc .vmem S1x3x512x512 .f32) (h2 : a2.IsWhole) (a3 : Memref sig .tc .vmem S1x3x512x512 .f32) (h3 : a3.IsWhole) (a4 : Memref sig .tc .vmem S1x1x512x512 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : ¬cond0_0 i) (x0 x1 : Vec F S1x3x512x512 .f32) (x2 : Vec F S1x1x512x512 .f32) (xo3 xo4 xo5 : Vec F S1x1x1 .f32) :
    out0_B_5 c i a2 h2 a3 h3 a4 h4 a5 h5 a6 h6 a7 h7 hc x0 x1 x2 xo3 xo4 xo5 = k0_pay2 (k0_pay9 x2 x1 x0) xo5 := by
  unfold out0_B_5
  rw [View.read_writes_eq_canon _ _ _ (cover0_B_5 c i a2 h2 a3 h3 a4 h4 a5 h5 a6 h6 a7 h7 hc x0 x1 x2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1x1x1) hz, View.ld_unit_zero (S := S1x1x512x512) hz4, View.ld_unit_zero (S := S1x3x512x512) hz4]

/-! A first point: the zero block is stored first and read back, so each accumulator is its update over zero. -/

theorem out_A_3 (c : Dev nD) (i : grid0.Coords) (a2 : Memref sig .tc .vmem S1x3x512x512 .f32) (h2 : a2.IsWhole) (a3 : Memref sig .tc .vmem S1x3x512x512 .f32) (h3 : a3.IsWhole) (a4 : Memref sig .tc .vmem S1x1x512x512 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : cond0_0 i) (x0 x1 : Vec F S1x3x512x512 .f32) (x2 : Vec F S1x1x512x512 .f32) :
    out0_A_3 c i a2 h2 a3 h3 a4 h4 a5 h5 a6 h6 a7 h7 hc x0 x1 x2 = k0_pay10 x2 k0_pay3 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S1x1x1) hz]
  simp only [View.readAt_eq_ld, h2.read_unread, h3.read_unread, h4.read_unread, h5.read_unread, h6.read_unread, h7.read_unread,
    View.readCov_unit_zero (S := S1x1x1) _ hz,
    View.ld_unit_zero (S := S1x1x1) hz, View.ld_unit_zero (S := S1x1x512x512) hz4, View.ld_unit_zero (S := S1x3x512x512) hz4]

theorem out_A_4 (c : Dev nD) (i : grid0.Coords) (a2 : Memref sig .tc .vmem S1x3x512x512 .f32) (h2 : a2.IsWhole) (a3 : Memref sig .tc .vmem S1x3x512x512 .f32) (h3 : a3.IsWhole) (a4 : Memref sig .tc .vmem S1x1x512x512 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : cond0_0 i) (x0 x1 : Vec F S1x3x512x512 .f32) (x2 : Vec F S1x1x512x512 .f32) :
    out0_A_4 c i a2 h2 a3 h3 a4 h4 a5 h5 a6 h6 a7 h7 hc x0 x1 x2 = k0_pay1 (k0_pay8 x2 x1 x0) k0_pay4 := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x1) hz]
  simp only [View.readAt_eq_ld, h2.read_unread, h3.read_unread, h4.read_unread, h5.read_unread, h6.read_unread, h7.read_unread,
    View.readCov_unit_zero (S := S1x1x1) _ hz,
    View.ld_unit_zero (S := S1x1x1) hz, View.ld_unit_zero (S := S1x1x512x512) hz4, View.ld_unit_zero (S := S1x3x512x512) hz4]

theorem out_A_5 (c : Dev nD) (i : grid0.Coords) (a2 : Memref sig .tc .vmem S1x3x512x512 .f32) (h2 : a2.IsWhole) (a3 : Memref sig .tc .vmem S1x3x512x512 .f32) (h3 : a3.IsWhole) (a4 : Memref sig .tc .vmem S1x1x512x512 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : cond0_0 i) (x0 x1 : Vec F S1x3x512x512 .f32) (x2 : Vec F S1x1x512x512 .f32) :
    out0_A_5 c i a2 h2 a3 h3 a4 h4 a5 h5 a6 h6 a7 h7 hc x0 x1 x2 = k0_pay2 (k0_pay9 x2 x1 x0) k0_pay5 := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x1) hz]
  simp only [View.readAt_eq_ld, h2.read_unread, h3.read_unread, h4.read_unread, h5.read_unread, h6.read_unread, h7.read_unread,
    View.readCov_unit_zero (S := S1x1x1) _ hz,
    View.ld_unit_zero (S := S1x1x1) hz, View.ld_unit_zero (S := S1x1x512x512) hz4, View.ld_unit_zero (S := S1x3x512x512) hz4]

end Cert.KernelIdeal.Pieces

end
-- ==== Proof.BlockSpec.lean ====
/-
  One image's share of the three sums: the kernel takes the arrays one image at a time, so each sum is first
  taken over a block — one image of the two image arrays, one image of the segmentation map.
-/
import proofs.«125737_j8770323218587_1_alg».proof.Proof.Spec

noncomputable section

open Idealize.ShloMosaic Idealize.ShloMosaic.ValueIdx

namespace Cert.MaskedMse

/-- One image's block of the two images, of the segmentation map, and an accumulator's block. -/
abbrev Blk3 : Shape := ⟨4, ![1, 3, 512, 512]⟩
abbrev Blk1 : Shape := ⟨4, ![1, 1, 512, 512]⟩
abbrev Acc : Shape := ⟨3, ![1, 1, 1]⟩

/-- The pixel of a segmentation block under an entry of an image block. -/
abbrev bpix (y : Blk3.Idx) : Blk1.Idx := ix4 (0 : Fin 1) (0 : Fin 1) (y 2) (y 3)

/-- A block's number of masked pixels. -/
def blkCnt (sg : Blk1.Idx → EReal) : EReal := ∑ y : Blk1.Idx, ind (sg y)

/-- A block's squared differences over the masked pixels' entries. -/
def blkPos (xb aeb : Blk3.Idx → EReal) (sg : Blk1.Idx → EReal) : EReal :=
  ∑ y : Blk3.Idx, (aeb y - xb y) * (aeb y - xb y) * ind (sg (bpix y))

/-- A block's squared differences over the other pixels' entries. -/
def blkNeg (xb aeb : Blk3.Idx → EReal) (sg : Blk1.Idx → EReal) : EReal :=
  ∑ y : Blk3.Idx, (aeb y - xb y) * (aeb y - xb y) * (Ideal.ofBits .f32 0x3F800000#32 - ind (sg (bpix y)))

end Cert.MaskedMse

end
-- ==== Proof.KernelPerImage.lean ====
/-
  The kernel's grid has sixteen points, one per image; point t reads image t of each array. This module names
  what each point adds to the three accumulators and says that the sixteen points' contributions together are
  the three whole-array sums.
-/
import proofs.«125737_j8770323218587_1_alg».proof.Proof.Spec
import proofs.«125737_j8770323218587_1_alg».proof.Proof.Algebra
import proofs.«125737_j8770323218587_1_alg».proof.Proof.BlockSpec
import proofs.«125737_j8770323218587_1_alg».proof.Proof.Gen.KernelIdeal.Frame

noncomputable section

open Idealize.ShloMosaic Idealize.ShloMosaic.TcCoe Idealize.ShloMosaic.ValueIdx Idealize.SL.Sem

namespace Cert.KernelIdeal.PerImage

open Cert.KernelIdeal Cert.KernelIdeal.Gen Cert.MaskedMse

variable (m : (ℓ : Loc nD τ sig) → Buf (Elt Ideal) ℓ)

/-- The three input blocks at a point, at their literal types. -/
abbrev xblk (c : Dev nD) (t : Fin cfg0.N) : Vec Ideal S1x3x512x512 .f32 := iblk m c 0 t
abbrev aeblk (c : Dev nD) (t : Fin cfg0.N) : Vec Ideal S1x3x512x512 .f32 := iblk m c 1 t
abbrev sgblk (c : Dev nD) (t : Fin cfg0.N) : Vec Ideal S1x1x512x512 .f32 := iblk m c 2 t

/-- What point t adds to the count, the masked sum and the unmasked sum (nothing, past the grid). -/
def cntAt (c : Dev nD) (t : ℕ) : EReal := if h : t < cfg0.N then blkCnt (sgblk m c ⟨t, h⟩) else 0
def posAt (c : Dev nD) (t : ℕ) : EReal :=
  if h : t < cfg0.N then blkPos (xblk m c ⟨t, h⟩) (aeblk m c ⟨t, h⟩) (sgblk m c ⟨t, h⟩) else 0
def negAt (c : Dev nD) (t : ℕ) : EReal :=
  if h : t < cfg0.N then blkNeg (xblk m c ⟨t, h⟩) (aeblk m c ⟨t, h⟩) (sgblk m c ⟨t, h⟩) else 0

/-- At point t each input window's block is image t: block number t on the image axis, 0 on the other axes. -/
private theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)
private theorem idx_facts1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)
private theorem idx_facts2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, win0_2.index t (0 : Fin 4) = t.val ∧ win0_2.index t (1 : Fin 4) = 0
    ∧ win0_2.index t (2 : Fin 4) = 0 ∧ win0_2.index t (3 : Fin 4) = 0)

/-- The grid has sixteen points. -/
private theorem N16 : cfg0.N = 16 := N_0

/-- The first image array's block at point n, read at y, is the array at (n, y 1, y 2, y 3). -/
private theorem xblk_apply (c : Dev nD) (n : Fin 16) (h : n.val < cfg0.N) (y : Blk3.Idx) :
    xblk m c ⟨n.val, h⟩ y = m ((c.tc : Thread nD τ).loc main_arg0) (ix4 n (y 1) (y 2) (y 3)) := by
  have hi : win0_0.index ⟨n.val, h⟩ (0 : Fin 4) = n.val ∧ win0_0.index ⟨n.val, h⟩ (1 : Fin 4) = 0
      ∧ win0_0.index ⟨n.val, h⟩ (2 : Fin 4) = 0 ∧ win0_0.index ⟨n.val, h⟩ (3 : Fin 4) = 0 := idx_facts0 ⟨n.val, h⟩
  show iblk m c 0 ⟨n.val, h⟩ y = _
  unfold iblk
  rw [View.read_apply]
  show V m c main_arg0 _ = m (c.tc.loc main_arg0) _
  unfold V
  congr 1
  funext a
  apply Fin.ext
  match a with
  | ⟨0, _⟩ =>
    show win0_0.index ⟨n.val, h⟩ (0 : Fin 4) * 1 + 1 * (y 0).val = n.val
    have h0 : (y 0).val < 1 := (y 0).isLt
    rw [hi.1]; omega
  | ⟨1, _⟩ =>
    show win0_0.index ⟨n.val, h⟩ (1 : Fin 4) * 3 + 1 * (y 1).val = (y 1).val
    rw [hi.2.1]; omega
  | ⟨2, _⟩ =>
    show win0_0.index ⟨n.val, h⟩ (2 : Fin 4) * 512 + 1 * (y 2).val = (y 2).val
    rw [hi.2.2.1]; omega
  | ⟨3, _⟩ =>
    show win0_0.index ⟨n.val, h⟩ (3 : Fin 4) * 512 + 1 * (y 3).val = (y 3).val
    rw [hi.2.2.2]; omega

/-- The second image array's block at point n, read at y, is the array at (n, y 1, y 2, y 3). -/
private theorem aeblk_apply (c : Dev nD) (n : Fin 16) (h : n.val < cfg0.N) (y : Blk3.Idx) :
    aeblk m c ⟨n.val, h⟩ y = m ((c.tc : Thread nD τ).loc main_arg1) (ix4 n (y 1) (y 2) (y 3)) := by
  have hi : win0_1.index ⟨n.val, h⟩ (0 : Fin 4) = n.val ∧ win0_1.index ⟨n.val, h⟩ (1 : Fin 4) = 0
      ∧ win0_1.index ⟨n.val, h⟩ (2 : Fin 4) = 0 ∧ win0_1.index ⟨n.val, h⟩ (3 : Fin 4) = 0 := idx_facts1 ⟨n.val, h⟩
  show iblk m c 1 ⟨n.val, h⟩ y = _
  unfold iblk
  rw [View.read_apply]
  show V m c main_arg1 _ = m (c.tc.loc main_arg1) _
  unfold V
  congr 1
  funext a
  apply Fin.ext
  match a with
  | ⟨0, _⟩ =>
    show win0_1.index ⟨n.val, h⟩ (0 : Fin 4) * 1 + 1 * (y 0).val = n.val
    have h0 : (y 0).val < 1 := (y 0).isLt
    rw [hi.1]; omega
  | ⟨1, _⟩ =>
    show win0_1.index ⟨n.val, h⟩ (1 : Fin 4) * 3 + 1 * (y 1).val = (y 1).val
    rw [hi.2.1]; omega
  | ⟨2, _⟩ =>
    show win0_1.index ⟨n.val, h⟩ (2 : Fin 4) * 512 + 1 * (y 2).val = (y 2).val
    rw [hi.2.2.1]; omega
  | ⟨3, _⟩ =>
    show win0_1.index ⟨n.val, h⟩ (3 : Fin 4) * 512 + 1 * (y 3).val = (y 3).val
    rw [hi.2.2.2]; omega

/-- The segmentation block at point n, read at y, is the map at (n, y 1, y 2, y 3). -/
private theorem sgblk_apply (c : Dev nD) (n : Fin 16) (h : n.val < cfg0.N) (y : Blk1.Idx) :
    sgblk m c ⟨n.val, h⟩ y = m ((c.tc : Thread nD τ).loc main_arg2) (ix4 n (y 1) (y 2) (y 3)) := by
  have hi : win0_2.index ⟨n.val, h⟩ (0 : Fin 4) = n.val ∧ win0_2.index ⟨n.val, h⟩ (1 : Fin 4) = 0
      ∧ win0_2.index ⟨n.val, h⟩ (2 : Fin 4) = 0 ∧ win0_2.index ⟨n.val, h⟩ (3 : Fin 4) = 0 := idx_facts2 ⟨n.val, h⟩
  show iblk m c 2 ⟨n.val, h⟩ y = _
  unfold iblk
  rw [View.read_apply]
  show V m c main_arg2 _ = m (c.tc.loc main_arg2) _
  unfold V
  congr 1
  funext a
  apply Fin.ext
  match a with
  | ⟨0, _⟩ =>
    show win0_2.index ⟨n.val, h⟩ (0 : Fin 4) * 1 + 1 * (y 0).val = n.val
    have h0 : (y 0).val < 1 := (y 0).isLt
    rw [hi.1]; omega
  | ⟨1, _⟩ =>
    show win0_2.index ⟨n.val, h⟩ (1 : Fin 4) * 1 + 1 * (y 1).val = (y 1).val
    rw [hi.2.1]; omega
  | ⟨2, _⟩ =>
    show win0_2.index ⟨n.val, h⟩ (2 : Fin 4) * 512 + 1 * (y 2).val = (y 2).val
    rw [hi.2.2.1]; omega
  | ⟨3, _⟩ =>
    show win0_2.index ⟨n.val, h⟩ (3 : Fin 4) * 512 + 1 * (y 3).val = (y 3).val
    rw [hi.2.2.2]; omega

/-- Every image number is a point of the grid. -/
private theorem lt_N (n : Fin 16) : n.val < cfg0.N := by rw [N16]; exact n.isLt

/-- The sixteen points' counts are the whole map's count. -/
theorem count_total (c : Dev nD) :
    ∑ n : Fin 16, cntAt m c n.val = count (m ((c.tc : Thread nD τ).loc main_arg2)) := by
  unfold Cert.MaskedMse.count
  refine Eq.trans ?_ (sum_by_image (c := 1) fun i => ind (m ((c.tc : Thread nD τ).loc main_arg2) i)).symm
  refine Finset.sum_congr rfl fun n _ => ?_
  refine (dif_pos (lt_N n)).trans ?_
  unfold blkCnt
  exact Finset.sum_congr rfl fun y _ => congrArg ind (sgblk_apply m c n (lt_N n) y)

/-- The sixteen points' masked sums are the whole arrays' masked sum. -/
theorem pos_total (c : Dev nD) :
    ∑ n : Fin 16, posAt m c n.val
      = posSum (m ((c.tc : Thread nD τ).loc main_arg0)) (m ((c.tc : Thread nD τ).loc main_arg1)) (m ((c.tc : Thread nD τ).loc main_arg2)) := by
  unfold posSum
  refine Eq.trans ?_ (sum_by_image (c := 3) fun i =>
    sqd (m ((c.tc : Thread nD τ).loc main_arg0)) (m ((c.tc : Thread nD τ).loc main_arg1)) i
      * ind (m ((c.tc : Thread nD τ).loc main_arg2) (pix i))).symm
  refine Finset.sum_congr rfl fun n _ => ?_
  refine (dif_pos (lt_N n)).trans ?_
  unfold blkPos
  refine Finset.sum_congr rfl fun y _ => ?_
  rw [xblk_apply m c n (lt_N n) y, aeblk_apply m c n (lt_N n) y, sgblk_apply m c n (lt_N n) (bpix y)]
  rfl

/-- The sixteen points' unmasked sums are the whole arrays' unmasked sum. -/
theorem neg_total (c : Dev nD) :
    ∑ n : Fin 16, negAt m c n.val
      = negSum (m ((c.tc : Thread nD τ).loc main_arg0)) (m ((c.tc : Thread nD τ).loc main_arg1)) (m ((c.tc : Thread nD τ).loc main_arg2)) := by
  unfold negSum
  refine Eq.trans ?_ (sum_by_image (c := 3) fun i =>
    sqd (m ((c.tc : Thread nD τ).loc main_arg0)) (m ((c.tc : Thread nD τ).loc main_arg1)) i
      * (Ideal.ofBits .f32 0x3F800000#32 - ind (m ((c.tc : Thread nD τ).loc main_arg2) (pix i)))).symm
  refine Finset.sum_congr rfl fun n _ => ?_
  refine (dif_pos (lt_N n)).trans ?_
  unfold blkNeg
  refine Finset.sum_congr rfl fun y _ => ?_
  rw [xblk_apply m c n (lt_N n) y, aeblk_apply m c n (lt_N n) y, sgblk_apply m c n (lt_N n) (bpix y)]
  rfl

end Cert.KernelIdeal.PerImage

end
-- ==== Proof.KernelPayload.lean ====
/-
  The body's three updates read at the extended reals. Each is "the carried value plus a sum over the block":
  the count's update adds the number of the block's pixels above one half; the other two add the block's squared
  differences weighted by the mask, or by one minus the mask. A lane reduction over every axis of a block is the
  total sum over the block; a shape cast only renames the entries of a sum; the mask made by widening the
  comparison's bit and converting it signed is the bit converted unsigned.
-/
import proofs.«125737_j8770323218587_1_alg».proof.Proof.BlockSpec
import proofs.«125737_j8770323218587_1_alg».proof.Proof.Gen.KernelIdeal.Skeleton
import Idealize.ShloMosaic.Lib.Pipeline.Value
import Idealize.ShloMosaic.Lib.KernelVsHost

noncomputable section

open Idealize.ShloMosaic Idealize.ShloMosaic.ValueIdx

namespace Cert.KernelIdeal.Payload

open Cert.KernelIdeal Cert.KernelIdeal.Gen Cert.MaskedMse

theorem one_axis_unit : ∀ b : Fin S1.rank, S1.size b = 1 := fun b => match b with | ⟨0, _⟩ => rfl

/-- The mask the body computes from a segmentation block, at an entry. -/
theorem mask_apply (sg : Vec Ideal S1x1x512x512 .f32) (y : S1x1x512x512.Idx) : k0_pay6 (F := Ideal) sg y = ind (sg y) := by
  unfold k0_pay6
  rw [sitofp_extui_eq_uitofp]
  rfl

/-- The zero block is zero. -/
theorem zero_apply (y : S1x1x1.Idx) : k0_pay3 (F := Ideal) y = 0 := Ideal.ofBits_zero_f32
theorem zero_apply' (y : S1x1x1.Idx) : k0_pay4 (F := Ideal) y = 0 := Ideal.ofBits_zero_f32
theorem zero_apply'' (y : S1x1x1.Idx) : k0_pay5 (F := Ideal) y = 0 := Ideal.ofBits_zero_f32

/-- A lane reduction over every axis but the leading unit one is the total sum over the source (stated for the two block shapes the body reduces). -/
theorem total_sum_pix (src : FVec Ideal S1x1x1x512x512 .f32) (h : S1x1x1x512x512.Reduces [1, 2, 3, 4] S1) (hφ : FKind.Formats .f32)
    (hacc : (0x00000000#32 : BitVec 32) = 0x00000000#32) (j : S1.Idx) :
    multiReduction .add [1, 2, 3, 4] S1 src 0x00000000#32 h hφ hacc j = ∑ i : S1x1x1x512x512.Idx, src i :=
  Ideal.multiReduction_add_total src _ h one_axis_unit hφ hacc j

theorem total_sum_img (src : FVec Ideal S1x1x3x512x512 .f32) (h : S1x1x3x512x512.Reduces [1, 2, 3, 4] S1) (hφ : FKind.Formats .f32)
    (hacc : (0x00000000#32 : BitVec 32) = 0x00000000#32) (j : S1.Idx) :
    multiReduction .add [1, 2, 3, 4] S1 src 0x00000000#32 h hφ hacc j = ∑ i : S1x1x3x512x512.Idx, src i :=
  Ideal.multiReduction_add_total src _ h one_axis_unit hφ hacc j

/-- The mask laid over the three channels, at an entry of an image block. -/
theorem mask3_apply (w : Vec Ideal S1x1x512x512 .f32) (y : S1x3x512x512.Idx) :
    broadcastTo S1x3x512x512 w broadcasts_S1x1x512x512_S1x3x512x512 y = w (bpix y) :=
  broadcastTo_apply w _ y (bpix y) fun a => match a with
    | ⟨0, _⟩ => rfl
    | ⟨1, _⟩ => rfl
    | ⟨2, _⟩ => rfl
    | ⟨3, _⟩ => rfl

/-- The block's number of masked pixels, as the body computes it: the total of the mask over the block. -/
theorem count_total (sg : Vec Ideal S1x1x512x512 .f32) (hφ : FKind.Formats .f32) (hacc : (0x00000000#32 : BitVec 32) = 0x00000000#32) :
    extractAt ![0, 0, 0, 0, 0] (shapeCast S1x1x1x1x1 (multiReduction .add [1, 2, 3, 4] S1 (shapeCast S1x1x1x512x512 (k0_pay6 (F := Ideal) sg) shapeCasts_S1x1x512x512_S1x1x1x512x512) 0x00000000#32 reduces_S1x1x1x512x512_S1 hφ hacc) shapeCasts_S1_S1x1x1x1x1) inpos_S1x1x1x1x1_p0_0_0_0_0 = blkCnt sg := by
  unfold extractAt
  unfold shapeCast
  refine (total_sum_pix _ _ _ _ _).trans ?_
  refine (Equiv.sum_comp (Shape.reshapeEquiv shapeCasts_S1x1x512x512_S1x1x1x512x512) (k0_pay6 (F := Ideal) sg)).trans ?_
  exact Finset.sum_congr rfl fun y _ => mask_apply sg y

/-- The count's update: the carried value plus the block's number of masked pixels. -/
theorem count_update (sg : Vec Ideal S1x1x512x512 .f32) (acc : Vec Ideal S1x1x1 .f32) (y : S1x1x1.Idx) :
    k0_pay10 (F := Ideal) sg acc y = acc y + blkCnt sg := by
  unfold k0_pay10
  rw [shapeCast_self]
  refine congrArg (fun z : EReal => acc y + z) ?_
  rw [broadcast_apply]
  exact count_total sg _ _

/-- The block's masked squared differences, as the body computes them: the total over the block's entries. -/
theorem masked_total' (sg : Vec Ideal S1x1x512x512 .f32) (aeb xb : Vec Ideal S1x3x512x512 .f32) (hφ : FKind.Formats .f32) (hacc : (0x00000000#32 : BitVec 32) = 0x00000000#32) :
    extractAt ![0, 0, 0, 0, 0] (shapeCast S1x1x1x1x1 (multiReduction .add [1, 2, 3, 4] S1 (shapeCast S1x1x3x512x512 (mulf (k0_pay7 (F := Ideal) aeb xb) (broadcastTo S1x3x512x512 (k0_pay6 (F := Ideal) sg) broadcasts_S1x1x512x512_S1x3x512x512)) shapeCasts_S1x3x512x512_S1x1x3x512x512) 0x00000000#32 reduces_S1x1x3x512x512_S1 hφ hacc) shapeCasts_S1_S1x1x1x1x1) inpos_S1x1x1x1x1_p0_0_0_0_0 = blkPos xb aeb sg := by
  unfold extractAt
  unfold shapeCast
  refine (total_sum_img _ _ _ _ _).trans ?_
  refine (Equiv.sum_comp (Shape.reshapeEquiv shapeCasts_S1x3x512x512_S1x1x3x512x512) (mulf (k0_pay7 (F := Ideal) aeb xb) (broadcastTo S1x3x512x512 (k0_pay6 (F := Ideal) sg) broadcasts_S1x1x512x512_S1x3x512x512))).trans ?_
  refine Finset.sum_congr rfl fun z _ => ?_
  show (aeb z - xb z) * (aeb z - xb z) * broadcastTo S1x3x512x512 (k0_pay6 (F := Ideal) sg) broadcasts_S1x1x512x512_S1x3x512x512 z = _
  rw [mask3_apply, mask_apply]

theorem masked_total (sg : Vec Ideal S1x1x512x512 .f32) (aeb xb : Vec Ideal S1x3x512x512 .f32) :
    k0_pay8 (F := Ideal) sg aeb xb = blkPos xb aeb sg := by
  unfold k0_pay8
  exact masked_total' sg aeb xb _ _

/-- The masked sum's update: the carried value plus the block's masked squared differences. -/
theorem pos_update (sg : Vec Ideal S1x1x512x512 .f32) (aeb xb : Vec Ideal S1x3x512x512 .f32) (acc : Vec Ideal S1x1x1 .f32) (y : S1x1x1.Idx) :
    k0_pay1 (F := Ideal) (k0_pay8 sg aeb xb) acc y = acc y + blkPos xb aeb sg := by
  unfold k0_pay1
  rw [shapeCast_self]
  refine congrArg (fun z : EReal => acc y + z) ?_
  rw [broadcast_apply]
  exact masked_total sg aeb xb

/-- The block's unmasked squared differences, as the body computes them: the total over the block's entries. -/
theorem unmasked_total' (sg : Vec Ideal S1x1x512x512 .f32) (aeb xb : Vec Ideal S1x3x512x512 .f32) (hφ : FKind.Formats .f32) (hacc : (0x00000000#32 : BitVec 32) = 0x00000000#32) :
    extractAt ![0, 0, 0, 0, 0] (shapeCast S1x1x1x1x1 (multiReduction .add [1, 2, 3, 4] S1 (shapeCast S1x1x3x512x512 (mulf (k0_pay7 (F := Ideal) aeb xb) (broadcastTo S1x3x512x512 (subf (broadcast S1x1x512x512 (Scalar.ofBits (F := Ideal) .f32 0x3F800000#32)) (k0_pay6 (F := Ideal) sg)) broadcasts_S1x1x512x512_S1x3x512x512)) shapeCasts_S1x3x512x512_S1x1x3x512x512) 0x00000000#32 reduces_S1x1x3x512x512_S1 hφ hacc) shapeCasts_S1_S1x1x1x1x1) inpos_S1x1x1x1x1_p0_0_0_0_0 = blkNeg xb aeb sg := by
  unfold extractAt
  unfold shapeCast
  refine (total_sum_img _ _ _ _ _).trans ?_
  refine (Equiv.sum_comp (Shape.reshapeEquiv shapeCasts_S1x3x512x512_S1x1x3x512x512) (mulf (k0_pay7 (F := Ideal) aeb xb) (broadcastTo S1x3x512x512 (subf (broadcast S1x1x512x512 (Scalar.ofBits (F := Ideal) .f32 0x3F800000#32)) (k0_pay6 (F := Ideal) sg)) broadcasts_S1x1x512x512_S1x3x512x512))).trans ?_
  refine Finset.sum_congr rfl fun z _ => ?_
  show (aeb z - xb z) * (aeb z - xb z) * broadcastTo S1x3x512x512 (subf (broadcast S1x1x512x512 (Scalar.ofBits (F := Ideal) .f32 0x3F800000#32)) (k0_pay6 (F := Ideal) sg)) broadcasts_S1x1x512x512_S1x3x512x512 z = _
  rw [mask3_apply]
  show _ * (Ideal.ofBits .f32 0x3F800000#32 - k0_pay6 (F := Ideal) sg (bpix z)) = _
  rw [mask_apply]

theorem unmasked_total (sg : Vec Ideal S1x1x512x512 .f32) (aeb xb : Vec Ideal S1x3x512x512 .f32) :
    k0_pay9 (F := Ideal) sg aeb xb = blkNeg xb aeb sg := by
  unfold k0_pay9
  exact unmasked_total' sg aeb xb _ _

/-- The unmasked sum's update: the carried value plus the block's unmasked squared differences. -/
theorem neg_update (sg : Vec Ideal S1x1x512x512 .f32) (aeb xb : Vec Ideal S1x3x512x512 .f32) (acc : Vec Ideal S1x1x1 .f32) (y : S1x1x1.Idx) :
    k0_pay2 (F := Ideal) (k0_pay9 sg aeb xb) acc y = acc y + blkNeg xb aeb sg := by
  unfold k0_pay2
  rw [shapeCast_self]
  refine congrArg (fun z : EReal => acc y + z) ?_
  rw [broadcast_apply]
  exact unmasked_total sg aeb xb

end Cert.KernelIdeal.Payload

end
-- ==== Proof.KernelFold.lean ====
/-
  The accumulators point by point. Each core runs eight consecutive points; at the first of them the accumulators
  restart from zero, at the others they add to what the point before left. So after point n each accumulator holds
  the sum of its per-point terms from the start of n's run of eight up to n.
-/
import proofs.«125737_j8770323218587_1_alg».proof.Proof.KernelPieces
import proofs.«125737_j8770323218587_1_alg».proof.Proof.KernelPerImage
import proofs.«125737_j8770323218587_1_alg».proof.Proof.KernelPayload

noncomputable section

open Idealize.ShloMosaic Idealize.ShloMosaic.TcCoe Idealize.ShloMosaic.ValueIdx Idealize.SL.Sem

namespace Cert.KernelIdeal.Fold

open Cert.KernelIdeal Cert.KernelIdeal.Gen Cert.MaskedMse Cert.KernelIdeal.Pieces Cert.KernelIdeal.Payload Cert.KernelIdeal.PerImage

/-- The terms of a sequence from the start of n's run of eight up to n, added up. -/
def run8 (s : ℕ → EReal) (n : ℕ) : EReal := ∑ k ∈ Finset.range (n % 8 + 1), s (8 * (n / 8) + k)

/-- At the start of a run the sum is the one term (written as the kernel computes it, over zero). -/
theorem run8_first (s : ℕ → EReal) (n : ℕ) (h : n % 8 = 0) : run8 s n = 0 + s n := by
  have e : 8 * (n / 8) + 0 = n := by omega
  unfold run8
  rw [h, Finset.sum_range_one, e, zero_add]

/-- Inside a run the sum grows by the next term. -/
theorem run8_next (s : ℕ → EReal) (n : ℕ) (h : ¬(n + 1) % 8 = 0) : run8 s (n + 1) = run8 s n + s (n + 1) := by
  have h1 : (n + 1) % 8 = n % 8 + 1 := by omega
  have h2 : (n + 1) / 8 = n / 8 := by omega
  have e : 8 * (n / 8) + (n % 8 + 1) = n + 1 := by omega
  unfold run8
  rw [h1, h2, Finset.sum_range_succ, e]

variable (m : (ℓ : Loc nD τ sig) → Buf (Elt Ideal) ℓ)

/-- A first point of a run: the three accumulators hold the point's own terms over zero. -/
theorem first_point (c : Dev nD) (n : ℕ) (h : n < cfg0.N) (h0 : n % 8 = 0) :
    outsAt0 m c n h = ((fun _ => 0 + cntAt m c n), (fun _ => 0 + posAt m c n), (fun _ => 0 + negAt m c n)) := by
  refine (outsAt0_A m c ⟨n, h⟩ h0).trans ?_
  refine Prod.ext (funext fun y => ?_) (Prod.ext (funext fun y => ?_) (funext fun y => ?_))
  · refine (congrFun (out_A_3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk m c 0 ⟨n, h⟩) (iblk m c 1 ⟨n, h⟩) (iblk m c 2 ⟨n, h⟩)) y).trans ?_
    refine (count_update (sgblk m c ⟨n, h⟩) (k0_pay3 (F := Ideal)) y).trans ?_
    rw [zero_apply, show cntAt m c n = blkCnt (sgblk m c ⟨n, h⟩) from dif_pos h]
  · refine (congrFun (out_A_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk m c 0 ⟨n, h⟩) (iblk m c 1 ⟨n, h⟩) (iblk m c 2 ⟨n, h⟩)) y).trans ?_
    refine (pos_update (sgblk m c ⟨n, h⟩) (aeblk m c ⟨n, h⟩) (xblk m c ⟨n, h⟩) (k0_pay4 (F := Ideal)) y).trans ?_
    rw [zero_apply', show posAt m c n = blkPos (xblk m c ⟨n, h⟩) (aeblk m c ⟨n, h⟩) (sgblk m c ⟨n, h⟩) from dif_pos h]
  · refine (congrFun (out_A_5 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk m c 0 ⟨n, h⟩) (iblk m c 1 ⟨n, h⟩) (iblk m c 2 ⟨n, h⟩)) y).trans ?_
    refine (neg_update (sgblk m c ⟨n, h⟩) (aeblk m c ⟨n, h⟩) (xblk m c ⟨n, h⟩) (k0_pay5 (F := Ideal)) y).trans ?_
    rw [zero_apply'', show negAt m c n = blkNeg (xblk m c ⟨n, h⟩) (aeblk m c ⟨n, h⟩) (sgblk m c ⟨n, h⟩) from dif_pos h]

/-- Another point of a run: each accumulator holds what the point before left plus the point's own term. -/
theorem later_point (c : Dev nD) (n : ℕ) (h : n + 1 < cfg0.N) (h0 : ¬(n + 1) % 8 = 0) :
    outsAt0 m c (n + 1) h
      = ((fun y => (outsAt0 m c n (Nat.lt_of_succ_lt h)).1 y + cntAt m c (n + 1)),
         (fun y => (outsAt0 m c n (Nat.lt_of_succ_lt h)).2.1 y + posAt m c (n + 1)),
         (fun y => (outsAt0 m c n (Nat.lt_of_succ_lt h)).2.2 y + negAt m c (n + 1))) := by
  refine (outsAt0_B m c ⟨n + 1, h⟩ h0).trans ?_
  refine Prod.ext (funext fun y => ?_) (Prod.ext (funext fun y => ?_) (funext fun y => ?_))
  · refine (congrFun (out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).1 (outsAt0 m c n (Nat.lt_of_succ_lt h)).2.1 (outsAt0 m c n (Nat.lt_of_succ_lt h)).2.2) y).trans ?_
    refine (count_update (sgblk m c ⟨n + 1, h⟩) (outsAt0 m c n (Nat.lt_of_succ_lt h)).1 y).trans ?_
    rw [show cntAt m c (n + 1) = blkCnt (sgblk m c ⟨n + 1, h⟩) from dif_pos h]
  · refine (congrFun (out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).1 (outsAt0 m c n (Nat.lt_of_succ_lt h)).2.1 (outsAt0 m c n (Nat.lt_of_succ_lt h)).2.2) y).trans ?_
    refine (pos_update (sgblk m c ⟨n + 1, h⟩) (aeblk m c ⟨n + 1, h⟩) (xblk m c ⟨n + 1, h⟩) (outsAt0 m c n (Nat.lt_of_succ_lt h)).2.1 y).trans ?_
    rw [show posAt m c (n + 1) = blkPos (xblk m c ⟨n + 1, h⟩) (aeblk m c ⟨n + 1, h⟩) (sgblk m c ⟨n + 1, h⟩) from dif_pos h]
  · refine (congrFun (out_B_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).1 (outsAt0 m c n (Nat.lt_of_succ_lt h)).2.1 (outsAt0 m c n (Nat.lt_of_succ_lt h)).2.2) y).trans ?_
    refine (neg_update (sgblk m c ⟨n + 1, h⟩) (aeblk m c ⟨n + 1, h⟩) (xblk m c ⟨n + 1, h⟩) (outsAt0 m c n (Nat.lt_of_succ_lt h)).2.2 y).trans ?_
    rw [show negAt m c (n + 1) = blkNeg (xblk m c ⟨n + 1, h⟩) (aeblk m c ⟨n + 1, h⟩) (sgblk m c ⟨n + 1, h⟩) from dif_pos h]

/-- After point n each accumulator holds its run's terms up to n. -/
theorem outsAt_eq (c : Dev nD) : ∀ (n : ℕ) (h : n < cfg0.N),
    outsAt0 m c n h = ((fun _ => run8 (cntAt m c) n), (fun _ => run8 (posAt m c) n), (fun _ => run8 (negAt m c) n))
  | 0, h => by
    rw [first_point m c 0 h rfl, run8_first _ 0 rfl, run8_first _ 0 rfl, run8_first _ 0 rfl]
  | n + 1, h => by
    by_cases h0 : (n + 1) % 8 = 0
    · rw [first_point m c (n + 1) h h0, run8_first _ _ h0, run8_first _ _ h0, run8_first _ _ h0]
    · rw [later_point m c n h h0, outsAt_eq c n (Nat.lt_of_succ_lt h), run8_next _ n h0, run8_next _ n h0, run8_next _ n h0]

end Cert.KernelIdeal.Fold

end
-- ==== Proof.KernelValue.lean ====
/-
  The kernel's three result arrays and its scalar result. Each result array has one entry per core; the entry is
  written back once, after the core's last point, and holds the sum of the core's eight per-point terms. The host
  operations after the region add the two cores' entries (from zero) and apply the closing scalar operations.
-/
import proofs.«125737_j8770323218587_1_alg».proof.Proof.KernelFold
import Idealize.ShloMosaic.Lib.Pipeline.Value
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.MaskedMse Cert.KernelIdeal.PerImage Cert.KernelIdeal.Fold

variable (m : (ℓ : Loc nD τ sig) → Buf (Elt Ideal) ℓ) (ρ : Dev nD → PrngReg)

/-- A result array: core p's entry is the sum of the eight terms of p's run. -/
def runs (s : ℕ → EReal) : S2x1x1.Idx → EReal := fun p => ∑ k ∈ Finset.range 8, s (8 * (p 0).val + k)

/-- Window 3's block index at a point: the core's number on the leading axis, zero on the others; every block is one entry. -/
theorem block_facts3 : ∀ t : Fin cfg0.N, win0_3.index t (0 : Fin 3) = t.val / 8 ∧ win0_3.index t (1 : Fin 3) = 0 ∧ win0_3.index t (2 : Fin 3) = 0
    ∧ ∀ a : Fin 3, win0_3.xsize (grid0.coords t) a = 1 :=
  (by decide +kernel : ∀ t : Fin grid0.N, win0_3.index t (0 : Fin 3) = t.val / 8 ∧ win0_3.index t (1 : Fin 3) = 0 ∧ win0_3.index t (2 : Fin 3) = 0
    ∧ ∀ a : Fin 3, win0_3.xsize (grid0.coords t) a = 1)

/-- What the last point of a core's run writes back for the count: that core's entry of the run sums. -/
theorem flushed_cnt (c : Dev nD) (t : Fin cfg0.N) (hf : (cfg0.win 3).flush t = true) :
    (dats m 0 c).flushed 3 t = ((cfg0.win 3).blk t).view.read (Elt Ideal) (runs (cntAt m c)) := by
  have h7 : t.val % 8 = 7 := (flush0_3 t).mp hf
  show (cfg0.win 3).cut (grid0.coords t) ((dats m 0 c).after 3 t) = _
  rw [after0_3, outsAt_eq]
  funext y
  rw [View.read_apply]
  show run8 (cntAt m c) t.val = runs (cntAt m c) _
  unfold run8 runs
  rw [h7]
  have e : ((((cfg0.win 3).blk t).view.emb y) 0).val = t.val / 8 := by
    have hy : (y 0).val < 1 := (y 0).isLt
    show win0_3.index t 0 * 1 + 1 * (y 0).val = _
    rw [(block_facts3 t).1]; omega
  rw [e]

/-- The two last points' blocks are the array's two entries. -/
theorem cover_cnt (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have hN : cfg0.N = 16 := N_0
  have hlt : 8 * (i 0).val + 7 < cfg0.N := by omega
  refine ⟨⟨8 * (i 0).val + 7, hlt⟩, (flush0_3 _).mpr (by show (8 * (i 0).val + 7) % 8 = 7; omega), ?_⟩
  obtain ⟨f0, f1, f2, fx⟩ := block_facts3 ⟨8 * (i 0).val + 7, hlt⟩
  show i ∈ ((View.whole main_v0_0).slice (win0_3.rect ⟨8 * (i 0).val + 7, hlt⟩)).set
  rw [View.set_slice_whole, Rect.mem_set_unit]
  intro a
  match a with
  | ⟨0, _⟩ =>
    show win0_3.index ⟨8 * (i 0).val + 7, hlt⟩ 0 * 1 ≤ (i 0).val ∧ (i 0).val < win0_3.index ⟨8 * (i 0).val + 7, hlt⟩ 0 * 1 + win0_3.xsize (grid0.coords ⟨8 * (i 0).val + 7, hlt⟩) 0
    rw [f0, fx 0]; show (8 * (i 0).val + 7) / 8 * 1 ≤ (i 0).val ∧ (i 0).val < (8 * (i 0).val + 7) / 8 * 1 + 1; omega
  | ⟨1, _⟩ =>
    show win0_3.index ⟨8 * (i 0).val + 7, hlt⟩ 1 * 1 ≤ (i 1).val ∧ (i 1).val < win0_3.index ⟨8 * (i 0).val + 7, hlt⟩ 1 * 1 + win0_3.xsize (grid0.coords ⟨8 * (i 0).val + 7, hlt⟩) 1
    rw [f1, fx 1]; omega
  | ⟨2, _⟩ =>
    show win0_3.index ⟨8 * (i 0).val + 7, hlt⟩ 2 * 1 ≤ (i 2).val ∧ (i 2).val < win0_3.index ⟨8 * (i 0).val + 7, hlt⟩ 2 * 1 + win0_3.xsize (grid0.coords ⟨8 * (i 0).val + 7, hlt⟩) 2
    rw [f2, fx 2]; omega

/-- So the result array for the count ends holding, per core, the sum of that core's eight per-point terms. -/
theorem final_cnt (c : Dev nD) : (dats m 0 c).arrAt 3 cfg0.N = runs (cntAt m c) :=
  (dats m 0 c).arrAt_eq_of_cover 3 (runs (cntAt m c)) (flushed_cnt m c) (cover_cnt c)

/-- Window 4's block index at a point: the core's number on the leading axis, zero on the others; every block is one entry. -/
theorem block_facts4 : ∀ t : Fin cfg0.N, win0_4.index t (0 : Fin 3) = t.val / 8 ∧ win0_4.index t (1 : Fin 3) = 0 ∧ win0_4.index t (2 : Fin 3) = 0
    ∧ ∀ a : Fin 3, win0_4.xsize (grid0.coords t) a = 1 :=
  (by decide +kernel : ∀ t : Fin grid0.N, win0_4.index t (0 : Fin 3) = t.val / 8 ∧ win0_4.index t (1 : Fin 3) = 0 ∧ win0_4.index t (2 : Fin 3) = 0
    ∧ ∀ a : Fin 3, win0_4.xsize (grid0.coords t) a = 1)

/-- What the last point of a core's run writes back for the masked sum: that core's entry of the run sums. -/
theorem flushed_pos (c : Dev nD) (t : Fin cfg0.N) (hf : (cfg0.win 4).flush t = true) :
    (dats m 0 c).flushed 4 t = ((cfg0.win 4).blk t).view.read (Elt Ideal) (runs (posAt m c)) := by
  have h7 : t.val % 8 = 7 := (flush0_4 t).mp hf
  show (cfg0.win 4).cut (grid0.coords t) ((dats m 0 c).after 4 t) = _
  rw [after0_4, outsAt_eq]
  funext y
  rw [View.read_apply]
  show run8 (posAt m c) t.val = runs (posAt m c) _
  unfold run8 runs
  rw [h7]
  have e : ((((cfg0.win 4).blk t).view.emb y) 0).val = t.val / 8 := by
    have hy : (y 0).val < 1 := (y 0).isLt
    show win0_4.index t 0 * 1 + 1 * (y 0).val = _
    rw [(block_facts4 t).1]; omega
  rw [e]

/-- The two last points' blocks are the array's two entries. -/
theorem cover_pos (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have hN : cfg0.N = 16 := N_0
  have hlt : 8 * (i 0).val + 7 < cfg0.N := by omega
  refine ⟨⟨8 * (i 0).val + 7, hlt⟩, (flush0_4 _).mpr (by show (8 * (i 0).val + 7) % 8 = 7; omega), ?_⟩
  obtain ⟨f0, f1, f2, fx⟩ := block_facts4 ⟨8 * (i 0).val + 7, hlt⟩
  show i ∈ ((View.whole main_v0_1).slice (win0_4.rect ⟨8 * (i 0).val + 7, hlt⟩)).set
  rw [View.set_slice_whole, Rect.mem_set_unit]
  intro a
  match a with
  | ⟨0, _⟩ =>
    show win0_4.index ⟨8 * (i 0).val + 7, hlt⟩ 0 * 1 ≤ (i 0).val ∧ (i 0).val < win0_4.index ⟨8 * (i 0).val + 7, hlt⟩ 0 * 1 + win0_4.xsize (grid0.coords ⟨8 * (i 0).val + 7, hlt⟩) 0
    rw [f0, fx 0]; show (8 * (i 0).val + 7) / 8 * 1 ≤ (i 0).val ∧ (i 0).val < (8 * (i 0).val + 7) / 8 * 1 + 1; omega
  | ⟨1, _⟩ =>
    show win0_4.index ⟨8 * (i 0).val + 7, hlt⟩ 1 * 1 ≤ (i 1).val ∧ (i 1).val < win0_4.index ⟨8 * (i 0).val + 7, hlt⟩ 1 * 1 + win0_4.xsize (grid0.coords ⟨8 * (i 0).val + 7, hlt⟩) 1
    rw [f1, fx 1]; omega
  | ⟨2, _⟩ =>
    show win0_4.index ⟨8 * (i 0).val + 7, hlt⟩ 2 * 1 ≤ (i 2).val ∧ (i 2).val < win0_4.index ⟨8 * (i 0).val + 7, hlt⟩ 2 * 1 + win0_4.xsize (grid0.coords ⟨8 * (i 0).val + 7, hlt⟩) 2
    rw [f2, fx 2]; omega

/-- So the result array for the masked sum ends holding, per core, the sum of that core's eight per-point terms. -/
theorem final_pos (c : Dev nD) : (dats m 0 c).arrAt 4 cfg0.N = runs (posAt m c) :=
  (dats m 0 c).arrAt_eq_of_cover 4 (runs (posAt m c)) (flushed_pos m c) (cover_pos c)

/-- Window 5's block index at a point: the core's number on the leading axis, zero on the others; every block is one entry. -/
theorem block_facts5 : ∀ t : Fin cfg0.N, win0_5.index t (0 : Fin 3) = t.val / 8 ∧ win0_5.index t (1 : Fin 3) = 0 ∧ win0_5.index t (2 : Fin 3) = 0
    ∧ ∀ a : Fin 3, win0_5.xsize (grid0.coords t) a = 1 :=
  (by decide +kernel : ∀ t : Fin grid0.N, win0_5.index t (0 : Fin 3) = t.val / 8 ∧ win0_5.index t (1 : Fin 3) = 0 ∧ win0_5.index t (2 : Fin 3) = 0
    ∧ ∀ a : Fin 3, win0_5.xsize (grid0.coords t) a = 1)

/-- What the last point of a core's run writes back for the unmasked sum: that core's entry of the run sums. -/
theorem flushed_neg (c : Dev nD) (t : Fin cfg0.N) (hf : (cfg0.win 5).flush t = true) :
    (dats m 0 c).flushed 5 t = ((cfg0.win 5).blk t).view.read (Elt Ideal) (runs (negAt m c)) := by
  have h7 : t.val % 8 = 7 := (flush0_5 t).mp hf
  show (cfg0.win 5).cut (grid0.coords t) ((dats m 0 c).after 5 t) = _
  rw [after0_5, outsAt_eq]
  funext y
  rw [View.read_apply]
  show run8 (negAt m c) t.val = runs (negAt m c) _
  unfold run8 runs
  rw [h7]
  have e : ((((cfg0.win 5).blk t).view.emb y) 0).val = t.val / 8 := by
    have hy : (y 0).val < 1 := (y 0).isLt
    show win0_5.index t 0 * 1 + 1 * (y 0).val = _
    rw [(block_facts5 t).1]; omega
  rw [e]

/-- The two last points' blocks are the array's two entries. -/
theorem cover_neg (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have hN : cfg0.N = 16 := N_0
  have hlt : 8 * (i 0).val + 7 < cfg0.N := by omega
  refine ⟨⟨8 * (i 0).val + 7, hlt⟩, (flush0_5 _).mpr (by show (8 * (i 0).val + 7) % 8 = 7; omega), ?_⟩
  obtain ⟨f0, f1, f2, fx⟩ := block_facts5 ⟨8 * (i 0).val + 7, hlt⟩
  show i ∈ ((View.whole main_v0_2).slice (win0_5.rect ⟨8 * (i 0).val + 7, hlt⟩)).set
  rw [View.set_slice_whole, Rect.mem_set_unit]
  intro a
  match a with
  | ⟨0, _⟩ =>
    show win0_5.index ⟨8 * (i 0).val + 7, hlt⟩ 0 * 1 ≤ (i 0).val ∧ (i 0).val < win0_5.index ⟨8 * (i 0).val + 7, hlt⟩ 0 * 1 + win0_5.xsize (grid0.coords ⟨8 * (i 0).val + 7, hlt⟩) 0
    rw [f0, fx 0]; show (8 * (i 0).val + 7) / 8 * 1 ≤ (i 0).val ∧ (i 0).val < (8 * (i 0).val + 7) / 8 * 1 + 1; omega
  | ⟨1, _⟩ =>
    show win0_5.index ⟨8 * (i 0).val + 7, hlt⟩ 1 * 1 ≤ (i 1).val ∧ (i 1).val < win0_5.index ⟨8 * (i 0).val + 7, hlt⟩ 1 * 1 + win0_5.xsize (grid0.coords ⟨8 * (i 0).val + 7, hlt⟩) 1
    rw [f1, fx 1]; omega
  | ⟨2, _⟩ =>
    show win0_5.index ⟨8 * (i 0).val + 7, hlt⟩ 2 * 1 ≤ (i 2).val ∧ (i 2).val < win0_5.index ⟨8 * (i 0).val + 7, hlt⟩ 2 * 1 + win0_5.xsize (grid0.coords ⟨8 * (i 0).val + 7, hlt⟩) 2
    rw [f2, fx 2]; omega

/-- So the result array for the unmasked sum ends holding, per core, the sum of that core's eight per-point terms. -/
theorem final_neg (c : Dev nD) : (dats m 0 c).arrAt 5 cfg0.N = runs (negAt m c) :=
  (dats m 0 c).arrAt_eq_of_cover 5 (runs (negAt m c)) (flushed_neg m c) (cover_neg c)

end Cert.KernelIdeal.Result

end
-- ==== Proof.KernelRun.lean ====
/-
  The kernel's scalar result. The host operations after the region add each result array's two entries from a
  zero initial value — so each total is the sum of all sixteen per-point terms, which is the whole-array sum — and
  then apply the closing scalar operations: the loss of the three arrays.
-/
import proofs.«125737_j8770323218587_1_alg».proof.Proof.KernelValue

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.MaskedMse Cert.KernelIdeal.PerImage Cert.KernelIdeal.Fold

variable (m : (ℓ : Loc nD τ sig) → Buf (Elt Ideal) ℓ) (ρ : Dev nD → PrngReg)

/-- The host's sum of a result array's two entries, from zero: all sixteen per-point terms. -/
theorem total_runs (s : ℕ → EReal) :
    (Host.reduceAdd (runs s) (constant (F := Ideal) S_ .f32 0x00000000#32) reducesTo_S2x1x1_S_d0_1_2 h_S_ : FVec Ideal S_ .f32)
      = fun _ => ∑ n : Fin 16, s n.val := by
  funext j
  show Ideal.hostReduceAdd _ _ _ j = _
  rw [Ideal.hostReduceAdd_total _ (fun b => b.elim0)]
  show Ideal.ofBits .f32 0x00000000#32 + _ = _
  rw [Ideal.ofBits_zero_f32, zero_add]
  exact sum_two_runs s

/-- The closing operations on the three result arrays. -/
def closing (a3 a4 a5 : FVec Ideal S2x1x1 .f32) : FVec Ideal S_ .f32 :=
  loss (Host.reduceAdd a3 (constant (F := Ideal) S_ .f32 0x00000000#32) reducesTo_S2x1x1_S_d0_1_2 h_S_)
    (Host.reduceAdd a4 (constant (F := Ideal) S_ .f32 0x00000000#32) reducesTo_S2x1x1_S_d0_1_2 h_S_)
    (Host.reduceAdd a5 (constant (F := Ideal) S_ .f32 0x00000000#32) reducesTo_S2x1x1_S_d0_1_2 h_S_)

set_option maxHeartbeats 2000000 in
/-- What the host operations after the region leave in the result buffer: the closing operations on the three result arrays. -/
theorem tail_eq (c : Dev nD) :
    Pipeline.afterTail₀ cfgs (dats m) 0 (V0 m) [hostOps1] c main_v13
      = closing ((dats m 0 c).arrAt 3 cfg0.N) ((dats m 0 c).arrAt 4 cfg0.N) ((dats m 0 c).arrAt 5 cfg0.N) := by
  have e3 : Pipeline.withArrays (cfgs 0).spec c (V0 m c) (fun w => (dats m 0 c).arrAt w (cfgs 0).N) (Proc.devRef .tc main_v0_0) = (dats m 0 c).arrAt 3 cfg0.N :=
    Pipeline.withArrays_arr spec0 launch0.win.arr_inj c (V0 m c) (fun w => (dats m 0 c).arrAt w cfg0.N) 3
  have e4 : Pipeline.withArrays (cfgs 0).spec c (V0 m c) (fun w => (dats m 0 c).arrAt w (cfgs 0).N) (Proc.devRef .tc main_v0_1) = (dats m 0 c).arrAt 4 cfg0.N :=
    Pipeline.withArrays_arr spec0 launch0.win.arr_inj c (V0 m c) (fun w => (dats m 0 c).arrAt w cfg0.N) 4
  have e5 : Pipeline.withArrays (cfgs 0).spec c (V0 m c) (fun w => (dats m 0 c).arrAt w (cfgs 0).N) (Proc.devRef .tc main_v0_2) = (dats m 0 c).arrAt 5 cfg0.N :=
    Pipeline.withArrays_arr spec0 launch0.win.arr_inj c (V0 m c) (fun w => (dats m 0 c).arrAt w cfg0.N) 5
  unfold Pipeline.afterTail₀
  show StableHlo.after hostOps1 _ (Proc.devRef .tc main_v13) = _
  after_results_simp
  rw [e3, e4, e5]
  rfl

/-- The kernel's scalar result is the loss of the three argument arrays. -/
theorem result_eq (c : Dev nD) :
    Pipeline.afterTail₀ cfgs (dats m) 0 (V0 m) [hostOps1] c main_v13
      = lossOf (m ((c.tc : Thread nD τ).loc main_arg0)) (m ((c.tc : Thread nD τ).loc main_arg1)) (m ((c.tc : Thread nD τ).loc main_arg2)) := by
  rw [tail_eq, final_cnt, final_pos, final_neg]
  unfold closing
  rw [total_runs, total_runs, total_runs, count_total, pos_total, neg_total]
  rfl

/-- The run: the result buffer ends at the loss of the three arrays, the arguments unchanged. -/
theorem run : θ_run defs (onTc (τ := τ) (main (F := Ideal))) ⟨m, fun _ => 0, ρ⟩ fun r => ∀ c : Dev nD,
      r.2.mem ((c.tc : Thread nD τ).loc main_v13)
        = lossOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  A masked mean-squared-error loss, computed by a kernel that takes the batch one image at a time on two cores,
  against the plain whole-array computation.

  From a segmentation map and two images the loss needs three numbers: the count of pixels whose segmentation
  value exceeds one half, and the sums of the squared image differences over the masked and over the unmasked
  pixels' entries; it then applies a fixed sequence of scalar operations to them. The reference takes each of
  the three as one sum over the whole arrays (the count as a sum of 32-bit words converted to a float: exact,
  because there are at most 2²² pixels). The kernel keeps three accumulators per core: at the first of a core's
  eight images they restart from zero, at each image they add that image's share, and after the core's last
  image each is written to the core's entry of a two-entry result array; the host then adds the two entries from
  zero and applies the same scalar operations. Over the extended reals addition is commutative and associative
  and zero is neutral, so the sixteen per-image shares add up to the whole-array sums in any grouping: the two
  results are the same function of the inputs. No finiteness of the inputs is used.

  The frames of the two kernel programs are the generated ones; the reference's frame is its generated run with
  the result forgotten; the idealization rewrote nothing.
-/
import proofs.«125737_j8770323218587_1_alg».proof.Defs
import proofs.«125737_j8770323218587_1_alg».proof.Proof.Gen.Kernel
import proofs.«125737_j8770323218587_1_alg».proof.Proof.Gen.Kernel.Skeleton
import proofs.«125737_j8770323218587_1_alg».proof.Proof.Gen.Kernel.Launch
import proofs.«125737_j8770323218587_1_alg».proof.Proof.Gen.Kernel.Points
import proofs.«125737_j8770323218587_1_alg».proof.Proof.Gen.Kernel.Frame
import proofs.«125737_j8770323218587_1_alg».proof.Proof.Gen.KernelIdeal
import proofs.«125737_j8770323218587_1_alg».proof.Proof.Gen.KernelIdeal.Skeleton
import proofs.«125737_j8770323218587_1_alg».proof.Proof.Gen.KernelIdeal.Launch
import proofs.«125737_j8770323218587_1_alg».proof.Proof.Gen.KernelIdeal.Points
import proofs.«125737_j8770323218587_1_alg».proof.Proof.Gen.KernelIdeal.Frame
import proofs.«125737_j8770323218587_1_alg».proof.Proof.Gen.ReferenceIdeal
import proofs.«125737_j8770323218587_1_alg».proof.Proof.Gen.ReferenceIdeal.Run
import proofs.«125737_j8770323218587_1_alg».proof.Proof.Gen.Pre_finite_inputs
import proofs.«125737_j8770323218587_1_alg».proof.Proof.RefValue
import proofs.«125737_j8770323218587_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the loss of the three argument arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.MaskedMse.Ref.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
